-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x2 .f32) (main_arg1 : IVec S2x1600000 32) (main_arg2 : FVec F S2x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x64 .f32 := Host.absf main_arg2
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x2 : Shape := ⟨2, ![10000, 2]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 104
  | .vmem => 17
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S2x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x1, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x1, .f32⟩
  | .hbm, ⟨95, _⟩ => ⟨S1700000x1, .f32⟩
  | .hbm, ⟨96, _⟩ => ⟨S1700000x1, .f32⟩
  | .hbm, ⟨97, _⟩ => ⟨S_, .f32⟩
  | .hbm, ⟨98, _⟩ => ⟨S100000x1, .f32⟩
  | .hbm, ⟨99, _⟩ => ⟨S1700000x1, .i32⟩
  | .hbm, ⟨100, _⟩ => ⟨S100000x1, .f32⟩
  | .hbm, ⟨101, _⟩ => ⟨S1x1, .f32⟩
  | .hbm, ⟨102, _⟩ => ⟨S100000x1, .f32⟩
  | .hbm, ⟨103, _⟩ => ⟨S100000x1, .f32⟩
  | .local _ .vmem, ⟨0, _⟩ => ⟨S10000x2, .f32⟩
  | .local _ .vmem, ⟨1, _⟩ => ⟨S10000x2, .f32⟩
  | .local _ .vmem, ⟨2, _⟩ => ⟨S2x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S10000x1, .f32⟩
  | .local _ .vmem, ⟨16, _⟩ => ⟨S10000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x2_S2x64_S10000x64_1_0_0_1_n_n_wf : DotDims.WF S10000x2 S2x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S2x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x1, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x1, .f32⟩
  | .hbm, ⟨105, _⟩ => ⟨S1700000x1, .f32⟩
  | .hbm, ⟨106, _⟩ => ⟨S1700000x1, .f32⟩
  | .hbm, ⟨107, _⟩ => ⟨S_, .f32⟩
  | .hbm, ⟨108, _⟩ => ⟨S100000x1, .f32⟩
  | .hbm, ⟨109, _⟩ => ⟨S1700000x1, .i32⟩
  | .hbm, ⟨110, _⟩ => ⟨S100000x1, .f32⟩
  | .hbm, ⟨111, _⟩ => ⟨S1x1, .f32⟩
  | .hbm, ⟨112, _⟩ => ⟨S100000x1, .f32⟩
  | .hbm, ⟨113, _⟩ => ⟨S100000x1, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x2_S2x64_S100000x64_1_0_0_1_n_n_wf : DotDims.WF S100000x2 S2x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«115050_j77111842832559_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.LibRowBlocks.lean ====
/- Two layout facts about matrices handled a block of rows at a time, over generic sizes.

   (1) The product of an [m, k] by a [k, n] matrix accumulated into zero, read at entry (a, b), is the sum over the contracted
       coordinate c of A (a, c) * B (c, b), whatever the operands' float formats (on the extended reals a format is no rounding).
   (2) Two [a, b] matrices laid side by side along the columns into [a, c]: an entry whose column falls in the first b columns
       reads the first matrix there, one whose column is b further reads the second. -/
import Idealize.ShloMosaic.Lib.ValueIdx
import Idealize.ShloMosaic.Lib.Pipeline.Value
import Idealize.ShloMosaic.PureOps.Ideal.Laws
import proofs.«115050_j77111842832559_1_alg».proof.Proof.LibDotRead

noncomputable section

open scoped BigOperators

namespace Cert.RowBlocks

open Idealize.ShloMosaic Idealize.ShloMosaic.ValueIdx

/-- A matmul over a rows-by-columns record into the zero accumulator, read at (a, b): the contraction sum re-indexed by
    the contracted coordinate. -/
theorem matmulZero_apply {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) (ix2 a b) = ∑ c : Fin k, A (ix2 a c) * B (ix2 c b) :=
  (Ideal.matmul_constant_zero_apply _ prec A B (ix2 a b)).trans (Cert.DotRead.sum_contr_plain w A B a b)

variable {α : Type}

/-- Side by side along the columns: a column j of the first matrix. -/
theorem catCols_left {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val = q.val) :
    concatenate ⟨2, ![a, c]⟩ 1 [⟨⟨2, ![a, b]⟩, x⟩, ⟨⟨2, ![a, b]⟩, y⟩] h (ix2 p q) = x (ix2 p j) :=
  concatenate_pair_apply_left (t := ⟨2, ![a, c]⟩) (s₁ := ⟨2, ![a, b]⟩) (s₂ := ⟨2, ![a, b]⟩) (1 : Fin 2) x y h (ix2 p q) rfl (ix2 p j)
    (fun ax => by
      match ax with
      | ⟨0, _⟩ => rfl
      | ⟨1, _⟩ => exact hj)

/-- Side by side along the columns: a column j of the second matrix sits b columns further. -/
theorem catCols_right {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val + b = q.val) :
    concatenate ⟨2, ![a, c]⟩ 1 [⟨⟨2, ![a, b]⟩, x⟩, ⟨⟨2, ![a, b]⟩, y⟩] h (ix2 p q) = y (ix2 p j) :=
  concatenate_pair_apply_right (t := ⟨2, ![a, c]⟩) (s₁ := ⟨2, ![a, b]⟩) (s₂ := ⟨2, ![a, b]⟩) (1 : Fin 2) x y h (ix2 p q) rfl rfl (ix2 p j)
    (fun ax hne => by
      match ax with
      | ⟨0, _⟩ => rfl
      | ⟨1, _⟩ => exact absurd rfl hne)
    (by show j.val + b = q.val; exact hj)

end Cert.RowBlocks

end
-- ==== Proof.Layer1.lean ====
/- The first dense layer as the pipeline computes it. The call walks the 100000 rows of x in ten blocks of 10000
   rows; at each block the body multiplies the block by the whole 2 x 64 weight matrix into a zero accumulator and
   writes the 10000 x 64 result back as the same rows of the output. Rows of a matrix product depend only on the
   same rows of the left factor, so the ten write-backs together are the product x · W1 of the whole arrays. -/
import proofs.«115050_j77111842832559_1_alg».proof.Proof.Gen.KernelIdeal.Frame
import proofs.«115050_j77111842832559_1_alg».proof.Proof.LibMatProd
import proofs.«115050_j77111842832559_1_alg».proof.Proof.LibRowBlocks
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)
open Cert.MatProd

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the x block and the output block are block-row t, the weight
    matrix is taken whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The body's product at an entry: the sum over the two contracted coordinates. -/
theorem product_entry (x : FVec Ideal S10000x2 .f32) (w : FVec Ideal S2x64 .f32) (j : S10000x64.Idx) :
    (k0_pay1 (F := Ideal) x w j : EReal) = ∑ cc : Fin 2, (x (ix2 (j 0) cc) * w (ix2 cc (j 1)) : EReal) := by
  obtain ⟨p, q, rfl⟩ : ∃ (p : Fin 10000) (q : Fin 64), j = ix2 p q := ⟨j 0, j 1, eq_ix2 j⟩
  unfold k0_pay1
  exact Cert.RowBlocks.matmulZero_apply dot_S10000x2_S2x64_S10000x64_1_0_0_1_n_n_wf none
    (truncf .bf16 x bitsLt_bf16_f32) (truncf .bf16 w bitsLt_bf16_f32) p q

/-- The input x as the region finds it. -/
abbrev input (c : Dev nD) : S100000x2.Idx → EReal := V c main_arg0
/-- The weight matrix as the region finds it. -/
abbrev weight (c : Dev nD) : S2x64.Idx → EReal := V c main_arg2

/-- The layer's output: the product of the arrays the region is entered with. -/
def result (c : Dev nD) : S100000x64.Idx → EReal := matProd (input V c) (weight V c)

/-- What grid point t writes back is block-row t of the product. -/
theorem flushed_eq (c : Dev nD) (t : Fin cfg0.N) :
    (dat0 V c).flushed 2 t = ((cfg0.win 2).blk t).view.read (Elt Ideal) (result V c) := by
  show (cfg0.win 2).cut (grid0.coords t) ((dat0 V c).after 2 t) = _
  rw [after0_2]
  unfold out0_2
  rw [View.canon_unit_zero zero_offsets]
  simp only [View.ld_unit_zero (S := S10000x2) zero_offsets, View.ld_unit_zero (S := S2x64) zero_offsets]
  obtain ⟨e00, e01, e10, e11, e20, e21, ht⟩ := block_indices t
  funext j
  show k0_pay1 (iblk0 V c 0 t) (iblk0 V c 1 t) j = result V c (((cfg0.win 2).blk t).view.emb j)
  refine (product_entry (iblk0 V c 0 t) (iblk0 V c 1 t) j).trans ?_
  show (∑ cc : Fin 2, input V c (((cfg0.win 0).blk t).view.emb (ix2 (j 0) cc)) * weight V c (((cfg0.win 1).blk t).view.emb (ix2 cc (j 1))))
    = ∑ cc : Fin 2, input V c (ix2 ((((cfg0.win 2).blk t).view.emb j) 0) cc) * weight V c (ix2 cc ((((cfg0.win 2).blk t).view.emb j) 1))
  refine Finset.sum_congr rfl fun cc _ => ?_
  have h0 : ((cfg0.win 0).blk t).view.emb (ix2 (j 0) cc) = ix2 ((((cfg0.win 2).blk t).view.emb j) 0) cc := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 2 + 1 * cc.val = cc.val; omega
  have h1 : ((cfg0.win 1).blk t).view.emb (ix2 cc (j 1)) = ix2 cc ((((cfg0.win 2).blk t).view.emb j) 1) := by
    funext a; apply Fin.ext
    match a with
    | ⟨0, _⟩ => show win0_1.index t (0 : Fin 2) * 2 + 1 * cc.val = cc.val; omega
    | ⟨1, _⟩ => show win0_1.index t (1 : Fin 2) * 64 + 1 * (j 1).val = win0_2.index t (1 : Fin 2) * 64 + 1 * (j 1).val; omega
  rw [h0, h1]
  rfl

/-- An index of the output is in point t's block iff its row is in block-row t. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Every block-row is some grid point's. -/
theorem point_of_row : ∀ q0 : Fin 10, ∃ t : Fin cfg0.N, win0_2.index t = ![q0.val, 0] :=
  (by decide +kernel : ∀ q0 : Fin 10, ∃ t : Fin grid0.N, win0_2.index t = ![q0.val, 0])

/-- The ten blocks cover the output. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := point_of_row ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the product of the arrays it was entered with. -/
theorem array_eq (c : Dev nD) : (dat0 V c).arrAt 2 cfg0.N = result V c :=
  (dat0 V c).arrAt_eq_of_cover 2 (result V c) (fun t _ => flushed_eq V c t) covered

end Cert.KernelIdeal.Layer1

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.LibDenseRelu.lean ====
/- A dense layer with the bias and the rectifier applied BEFORE the product, over generic sizes and the extended reals:
   out (p, q) = Σ_c max (a (p, c) + b (c), 0) · w (c, q), the zero written as the float word it is printed with.

   (1) the rectified input, entry by entry, in two layouts of the bias: a vector of k entries, or the same vector
       held as a one-row matrix;
   (2) a kernel's spelling of it — the input and the one-row bias passed through identity casts, the bias row repeated
       down the rows, the sum compared with a splat zero, both operands narrowed, the product accumulated into zero —
       read at an entry;
   (3) the host's spelling of the rectified input — the bias vector laid out as one row and then down the rows, the
       sum compared with a broadcast scalar zero — read at an entry. -/
import Idealize.ShloMosaic.Lib.ValueIdx
import Idealize.ShloMosaic.Lib.Pipeline.Value
import Idealize.ShloMosaic.PureOps.Ideal.Laws
import proofs.«115050_j77111842832559_1_alg».proof.Proof.LibRowBlocks
import proofs.«115050_j77111842832559_1_alg».proof.Proof.LibBiasRow

noncomputable section

open scoped BigOperators

namespace Cert.DenseRelu

open Idealize.ShloMosaic Idealize.ShloMosaic.ValueIdx

/-- max (a + b, 0) entry by entry, the bias a vector along the columns. -/
def rectified {m k : Nat} (a : (⟨2, ![m, k]⟩ : Shape).Idx → EReal) (b : (⟨1, ![k]⟩ : Shape).Idx → EReal) :
    (⟨2, ![m, k]⟩ : Shape).Idx → EReal :=
  fun i => max (a i + b (ix1 (i 1))) (Ideal.ofBits .f32 0x00000000#32)

/-- The same with the bias held as a one-row matrix. -/
def rectifiedRow {m k : Nat} (a : (⟨2, ![m, k]⟩ : Shape).Idx → EReal) (b : (⟨2, ![1, k]⟩ : Shape).Idx → EReal) :
    (⟨2, ![m, k]⟩ : Shape).Idx → EReal :=
  fun i => max (a i + b (ix2 (0 : Fin 1) (i 1))) (Ideal.ofBits .f32 0x00000000#32)

/-- A bias vector cast to one row gives the same rectified input. -/
theorem rectifiedRow_cast {m k : Nat} (a : (⟨2, ![m, k]⟩ : Shape).Idx → EReal) (b : (⟨1, ![k]⟩ : Shape).Idx → EReal)
    (h1 : (⟨1, ![k]⟩ : Shape).ShapeCasts ⟨2, ![1, k]⟩) :
    rectifiedRow a (shapeCast ⟨2, ![1, k]⟩ b h1) = rectified a b := by
  funext i
  show max (a i + shapeCast ⟨2, ![1, k]⟩ b h1 (ix2 (0 : Fin 1) (i 1))) _ = max (a i + b (ix1 (i 1))) _
  rw [Cert.BiasRow.oneRow_cast_apply b h1 (i 1)]

/-- One row repeated down m rows reads, at (p, j), the row at j. -/
theorem rowsOf_apply {α : Type} {m k : Nat} (v : (⟨2, ![1, k]⟩ : Shape).Idx → α)
    (hb : (⟨2, ![1, k]⟩ : Shape).Broadcasts ⟨2, ![m, k]⟩) (p : Fin m) (j : Fin k) :
    broadcastTo ⟨2, ![m, k]⟩ v hb (ix2 p j) = v (ix2 (0 : Fin 1) j) := by
  refine broadcastTo_apply v hb (ix2 p j) (ix2 (0 : Fin 1) j) ?_
  intro ax
  match ax with
  | ⟨0, _⟩ => rfl
  | ⟨1, _⟩ =>
    show j.val = if k = 1 then 0 else j.val
    split
    · have := j.isLt; omega
    · rfl

/-- The kernel's spelling, read at (p, q): the contraction of the rectified input's row p with column q of w. -/
theorem kernel_entry {m k n : Nat}
    (wf : DotDims.WF ⟨2, ![m, k]⟩ ⟨2, ![k, n]⟩ ⟨2, ![m, n]⟩ [1] [0] [0] [1] [] [])
    (hx : (⟨2, ![m, k]⟩ : Shape).ShapeCasts ⟨2, ![m, k]⟩) (hb1 : (⟨2, ![1, k]⟩ : Shape).ShapeCasts ⟨2, ![1, k]⟩)
    (hb : (⟨2, ![1, k]⟩ : Shape).Broadcasts ⟨2, ![m, k]⟩) (hbits : FTy.bits .bf16 < FTy.bits .f32)
    (x : FVec Ideal ⟨2, ![m, k]⟩ .f32) (b : FVec Ideal ⟨2, ![1, k]⟩ .f32) (w : FVec Ideal ⟨2, ![k, n]⟩ .f32)
    (p : Fin m) (q : Fin n) :
    matmul (⟨[1], [0], [0], [1], [], [], wf⟩ : DotDims ⟨2, ![m, k]⟩ ⟨2, ![k, n]⟩ ⟨2, ![m, n]⟩) none
        (truncf .bf16 (maximumf (addf (shapeCast ⟨2, ![m, k]⟩ x hx) (broadcastTo ⟨2, ![m, k]⟩ (shapeCast ⟨2, ![1, k]⟩ b hb1) hb))
          (broadcast ⟨2, ![m, k]⟩ (Scalar.ofBits (F := Ideal) .f32 0x00000000#32))) hbits)
        (truncf .bf16 w hbits) (constant (F := Ideal) ⟨2, ![m, n]⟩ .f32 0x00000000#32) (ix2 p q)
      = ∑ cc : Fin k, rectifiedRow x b (ix2 p cc) * w (ix2 cc q) := by
  refine (Cert.RowBlocks.matmulZero_apply wf none _ _ p q).trans ?_
  refine Finset.sum_congr rfl fun cc _ => ?_
  show max (shapeCast ⟨2, ![m, k]⟩ x hx (ix2 p cc) + broadcastTo ⟨2, ![m, k]⟩ (shapeCast ⟨2, ![1, k]⟩ b hb1) hb (ix2 p cc))
      (Ideal.ofBits .f32 0x00000000#32) * w (ix2 cc q) = max (x (ix2 p cc) + b (ix2 (0 : Fin 1) cc)) (Ideal.ofBits .f32 0x00000000#32) * w (ix2 cc q)
  rw [shapeCast_self, rowsOf_apply, shapeCast_self]

/-- The host's spelling of the rectified input, read at an entry. -/
theorem host_rectified {m k : Nat}
    (hd1 : (⟨1, ![k]⟩ : Shape).BroadcastsInDim ⟨2, ![1, k]⟩ ![1])
    (hd2 : (⟨2, ![1, k]⟩ : Shape).BroadcastsInDim ⟨2, ![m, k]⟩ ![0, 1])
    (hz : (⟨0, ![]⟩ : Shape).BroadcastsInDim ⟨2, ![m, k]⟩ (![] : Fin 0 → Fin 2))
    (a : FVec Ideal ⟨2, ![m, k]⟩ .f32) (b : FVec Ideal ⟨1, ![k]⟩ .f32) :
    maximumf (addf a (broadcastInDim ⟨2, ![m, k]⟩ ![0, 1] hd2 (broadcastInDim ⟨2, ![1, k]⟩ ![1] hd1 b)))
        (broadcastInDim ⟨2, ![m, k]⟩ ![] hz (constant (F := Ideal) ⟨0, ![]⟩ .f32 0x00000000#32))
      = rectified a b := by
  funext i
  obtain ⟨p, cc, rfl⟩ : ∃ (p : Fin m) (cc : Fin k), i = ix2 p cc := ⟨i 0, i 1, eq_ix2 i⟩
  show max (a (ix2 p cc) + broadcastInDim ⟨2, ![m, k]⟩ ![0, 1] hd2 (broadcastInDim ⟨2, ![1, k]⟩ ![1] hd1 b) (ix2 p cc))
      (broadcastInDim ⟨2, ![m, k]⟩ ![] hz (constant (F := Ideal) ⟨0, ![]⟩ .f32 0x00000000#32) (ix2 p cc))
    = max (a (ix2 p cc) + b (ix1 cc)) (Ideal.ofBits .f32 0x00000000#32)
  rw [Cert.BiasRow.inDimRows_apply b hd1 hd2 p cc,
    broadcastInDim_apply (![] : Fin 0 → Fin 2) hz (constant (F := Ideal) ⟨0, ![]⟩ .f32 0x00000000#32) (ix2 p cc) (fun a => a.elim0) (fun a => a.elim0)]
  rfl

end Cert.DenseRelu

end
-- ==== Proof.Layer2.lean ====
/- The second dense layer as the pipeline computes it. The call walks the 100000 rows of the aggregated features in ten
   blocks of 10000 rows; at each block the body adds the bias row to every row, takes the maximum with zero, multiplies
   by the whole 64 x 64 weight matrix into a zero accumulator and writes the result back as the same rows of the output.
   Adding a row vector, the rectifier and a matrix product all act row by row, so the ten write-backs together are
   max (agg + b1, 0) · W2 over the whole arrays. -/
import proofs.«115050_j77111842832559_1_alg».proof.Proof.Gen.KernelIdeal.Frame
import proofs.«115050_j77111842832559_1_alg».proof.Proof.LibMatProd
import proofs.«115050_j77111842832559_1_alg».proof.Proof.LibDenseRelu
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)
open Cert.MatProd Cert.DenseRelu

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the input block and the output block are block-row t; the bias
    row and the weight matrix are taken whole. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- The body's result at an entry: the contraction of the rectified input's row with a column of the weights. -/
theorem dense_entry (x : FVec Ideal S10000x64 .f32) (b : FVec Ideal S1x64 .f32) (w : FVec Ideal S64x64 .f32) (j : S10000x64.Idx) :
    (k1_pay1 (F := Ideal) x b w j : EReal) = ∑ cc : Fin 64, rectifiedRow x b (ix2 (j 0) cc) * w (ix2 cc (j 1)) := by
  obtain ⟨p, q, rfl⟩ : ∃ (p : Fin 10000) (q : Fin 64), j = ix2 p q := ⟨j 0, j 1, eq_ix2 j⟩
  unfold k1_pay1
  exact kernel_entry dot_S10000x64_S64x64_S10000x64_1_0_0_1_n_n_wf shapeCasts_S10000x64_S10000x64 shapeCasts_S1x64_S1x64
    broadcasts_S1x64_S10000x64 bitsLt_bf16_f32 x b w p q

/-- The aggregated features as the region finds them. -/
abbrev input (c : Dev nD) : S100000x64.Idx → EReal := V c main_v44
/-- The bias, held as one row, as the region finds it. -/
abbrev biasRow (c : Dev nD) : S1x64.Idx → EReal := V c main_v45
/-- The weight matrix as the region finds it. -/
abbrev weight (c : Dev nD) : S64x64.Idx → EReal := V c main_arg4

/-- The layer's output: the rectified, biased input times the weights, over the whole arrays. -/
def result (c : Dev nD) : S100000x64.Idx → EReal := matProd (rectifiedRow (input V c) (biasRow V c)) (weight V c)

/-- What grid point t writes back is block-row t of that product. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S1x64) zero_offsets, View.ld_unit_zero (S := S64x64) zero_offsets]
  obtain ⟨e00, e01, e10, e11, e20, e21, e30, e31, ht⟩ := block_indices t
  funext j
  show k1_pay1 (iblk1 V c 0 t) (iblk1 V c 1 t) (iblk1 V c 2 t) j = result V c (((cfg1.win 3).blk t).view.emb j)
  refine (dense_entry (iblk1 V c 0 t) (iblk1 V c 1 t) (iblk1 V c 2 t) j).trans ?_
  show (∑ cc : Fin 64, max (input V c (((cfg1.win 0).blk t).view.emb (ix2 (j 0) cc)) + biasRow V c (((cfg1.win 1).blk t).view.emb (ix2 (0 : Fin 1) cc)))
          (Ideal.ofBits .f32 0x00000000#32) * weight V c (((cfg1.win 2).blk t).view.emb (ix2 cc (j 1))))
    = ∑ cc : Fin 64, max (input V c (ix2 ((((cfg1.win 3).blk t).view.emb j) 0) cc) + biasRow V c (ix2 (0 : Fin 1) cc))
          (Ideal.ofBits .f32 0x00000000#32) * weight V c (ix2 cc ((((cfg1.win 3).blk t).view.emb j) 1))
  refine Finset.sum_congr rfl fun cc _ => ?_
  have h0 : ((cfg1.win 0).blk t).view.emb (ix2 (j 0) cc) = ix2 ((((cfg1.win 3).blk t).view.emb j) 0) cc := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * cc.val = cc.val; omega
  have h1 : ((cfg1.win 1).blk t).view.emb (ix2 (0 : Fin 1) cc) = ix2 (0 : Fin 1) cc := by
    funext a; apply Fin.ext
    match a with
    | ⟨0, _⟩ => show win1_1.index t (0 : Fin 2) * 1 + 1 * 0 = 0; omega
    | ⟨1, _⟩ => show win1_1.index t (1 : Fin 2) * 64 + 1 * cc.val = cc.val; omega
  have h2 : ((cfg1.win 2).blk t).view.emb (ix2 cc (j 1)) = ix2 cc ((((cfg1.win 3).blk t).view.emb j) 1) := by
    funext a; apply Fin.ext
    match a with
    | ⟨0, _⟩ => show win1_2.index t (0 : Fin 2) * 64 + 1 * cc.val = cc.val; omega
    | ⟨1, _⟩ => show win1_2.index t (1 : Fin 2) * 64 + 1 * (j 1).val = win1_3.index t (1 : Fin 2) * 64 + 1 * (j 1).val; omega
  rw [h0, h1, h2]
  rfl

/-- An index of the output is in point t's block iff its row is in block-row t. -/
theorem mem_block (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v46).slice (win1_3.rect t)).set ↔ _
  rw [View.set_slice_whole, Rect.mem_set_unit]
  exact Iff.rfl

/-- Every block-row is some grid point's. -/
theorem point_of_row : ∀ q0 : Fin 10, ∃ t : Fin cfg1.N, win1_3.index t = ![q0.val, 0] :=
  (by decide +kernel : ∀ q0 : Fin 10, ∃ t : Fin grid1.N, win1_3.index t = ![q0.val, 0])

/-- The ten blocks cover the output. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := point_of_row ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the region: the layer applied to the arrays it was entered with. -/
theorem array_eq (c : Dev nD) : (dat1 V c).arrAt 3 cfg1.N = result V c :=
  (dat1 V c).arrAt_eq_of_cover 3 (result V c) (fun t _ => flushed_eq V c t) covered

end Cert.KernelIdeal.Layer2

end
-- ==== Proof.Layer3.lean ====
/- The third dense layer as the pipeline computes it. The call walks the 100000 rows of the aggregated features in ten
   blocks of 10000 rows; at each block the body adds the bias row to every row, takes the maximum with zero, multiplies
   by the 64 x 1 weight column into a zero accumulator and writes the 10000 results back as the same rows of the output.
   Each of these steps acts row by row, so the ten write-backs together are max (agg + b2, 0) · W3 over the whole arrays. -/
import proofs.«115050_j77111842832559_1_alg».proof.Proof.Gen.KernelIdeal.Frame
import proofs.«115050_j77111842832559_1_alg».proof.Proof.LibMatProd
import proofs.«115050_j77111842832559_1_alg».proof.Proof.LibDenseRelu
import Idealize.ShloMosaic.Lib.Pipeline.Value
import Idealize.ShloMosaic.Lib.ValueIdx

set_option maxRecDepth 16384

noncomputable section

open scoped BigOperators

namespace Cert.KernelIdeal.Layer3

open Cert.KernelIdeal Cert.KernelIdeal.Gen Idealize.ShloMosaic Idealize.ShloMosaic.TcCoe Idealize.ShloMosaic.ValueIdx Idealize.SL.Sem
open Idealize.ShloMosaic.Pipeline (Dat)
open Cert.MatProd Cert.DenseRelu

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the input block and the output block are block-row t; the bias
    row and the weight matrix are taken whole. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

/-- The body's result at an entry: the contraction of the rectified input's row with a column of the weights. -/
theorem dense_entry (x : FVec Ideal S10000x64 .f32) (b : FVec Ideal S1x64 .f32) (w : FVec Ideal S64x1 .f32) (j : S10000x1.Idx) :
    (k2_pay1 (F := Ideal) x b w j : EReal) = ∑ cc : Fin 64, rectifiedRow x b (ix2 (j 0) cc) * w (ix2 cc (j 1)) := by
  obtain ⟨p, q, rfl⟩ : ∃ (p : Fin 10000) (q : Fin 1), j = ix2 p q := ⟨j 0, j 1, eq_ix2 j⟩
  unfold k2_pay1
  exact kernel_entry dot_S10000x64_S64x1_S10000x1_1_0_0_1_n_n_wf shapeCasts_S10000x64_S10000x64 shapeCasts_S1x64_S1x64
    broadcasts_S1x64_S10000x64 bitsLt_bf16_f32 x b w p q

/-- The aggregated features as the region finds them. -/
abbrev input (c : Dev nD) : S100000x64.Idx → EReal := V c main_v59
/-- The bias, held as one row, as the region finds it. -/
abbrev biasRow (c : Dev nD) : S1x64.Idx → EReal := V c main_v60
/-- The weight matrix as the region finds it. -/
abbrev weight (c : Dev nD) : S64x1.Idx → EReal := V c main_arg6

/-- The layer's output: the rectified, biased input times the weights, over the whole arrays. -/
def result (c : Dev nD) : S100000x1.Idx → EReal := matProd (rectifiedRow (input V c) (biasRow V c)) (weight V c)

/-- What grid point t writes back is block-row t of that product. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero zero_offsets]
  simp only [View.ld_unit_zero (S := S10000x64) zero_offsets, View.ld_unit_zero (S := S1x64) zero_offsets, View.ld_unit_zero (S := S64x1) zero_offsets]
  obtain ⟨e00, e01, e10, e11, e20, e21, e30, e31, ht⟩ := block_indices t
  funext j
  show k2_pay1 (iblk2 V c 0 t) (iblk2 V c 1 t) (iblk2 V c 2 t) j = result V c (((cfg2.win 3).blk t).view.emb j)
  refine (dense_entry (iblk2 V c 0 t) (iblk2 V c 1 t) (iblk2 V c 2 t) j).trans ?_
  show (∑ cc : Fin 64, max (input V c (((cfg2.win 0).blk t).view.emb (ix2 (j 0) cc)) + biasRow V c (((cfg2.win 1).blk t).view.emb (ix2 (0 : Fin 1) cc)))
          (Ideal.ofBits .f32 0x00000000#32) * weight V c (((cfg2.win 2).blk t).view.emb (ix2 cc (j 1))))
    = ∑ cc : Fin 64, max (input V c (ix2 ((((cfg2.win 3).blk t).view.emb j) 0) cc) + biasRow V c (ix2 (0 : Fin 1) cc))
          (Ideal.ofBits .f32 0x00000000#32) * weight V c (ix2 cc ((((cfg2.win 3).blk t).view.emb j) 1))
  refine Finset.sum_congr rfl fun cc _ => ?_
  have h0 : ((cfg2.win 0).blk t).view.emb (ix2 (j 0) cc) = ix2 ((((cfg2.win 3).blk t).view.emb j) 0) cc := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * cc.val = cc.val; omega
  have h1 : ((cfg2.win 1).blk t).view.emb (ix2 (0 : Fin 1) cc) = ix2 (0 : Fin 1) cc := by
    funext a; apply Fin.ext
    match a with
    | ⟨0, _⟩ => show win2_1.index t (0 : Fin 2) * 1 + 1 * 0 = 0; omega
    | ⟨1, _⟩ => show win2_1.index t (1 : Fin 2) * 64 + 1 * cc.val = cc.val; omega
  have h2 : ((cfg2.win 2).blk t).view.emb (ix2 cc (j 1)) = ix2 cc ((((cfg2.win 3).blk t).view.emb j) 1) := by
    funext a; apply Fin.ext
    match a with
    | ⟨0, _⟩ => show win2_2.index t (0 : Fin 2) * 64 + 1 * cc.val = cc.val; omega
    | ⟨1, _⟩ => show win2_2.index t (1 : Fin 2) * 1 + 1 * (j 1).val = win2_3.index t (1 : Fin 2) * 1 + 1 * (j 1).val; omega
  rw [h0, h1, h2]
  rfl

/-- An index of the output is in point t's block iff its row is in block-row t. -/
theorem mem_block (t : Fin cfg2.N) (i : S100000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v61).slice (win2_3.rect t)).set ↔ _
  rw [View.set_slice_whole, Rect.mem_set_unit]
  exact Iff.rfl

/-- Every block-row is some grid point's. -/
theorem point_of_row : ∀ q0 : Fin 10, ∃ t : Fin cfg2.N, win2_3.index t = ![q0.val, 0] :=
  (by decide +kernel : ∀ q0 : Fin 10, ∃ t : Fin grid2.N, win2_3.index t = ![q0.val, 0])

/-- The ten blocks cover the output. -/
theorem covered (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  obtain ⟨t, ht⟩ := point_of_row ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 1 ≤ (i 1).val ∧ (i 1).val < win2_3.index t (1 : Fin 2) * 1 + 1; omega

/-- The output array after the region: the layer applied to the arrays it was entered with. -/
theorem array_eq (c : Dev nD) : (dat2 V c).arrAt 3 cfg2.N = result V c :=
  (dat2 V c).arrAt_eq_of_cover 3 (result V c) (fun t _ => flushed_eq V c t) covered

end Cert.KernelIdeal.Layer3

end
-- ==== Proof.RefLayers.lean ====
/- The reference's three dense layers, each read as a matrix product over the extended reals: the first is the product
   x · W1; the second and third apply the bias and the rectifier to the aggregated features first, as the host spells
   them (the bias laid out as one row, then down the rows; the maximum taken with a broadcast scalar zero). -/
import proofs.«115050_j77111842832559_1_alg».proof.Proof.RefRead
import proofs.«115050_j77111842832559_1_alg».proof.Proof.LibMatProd
import proofs.«115050_j77111842832559_1_alg».proof.Proof.LibDenseRelu

noncomputable section

namespace Cert.ReferenceIdeal.Layers

open Cert.ReferenceIdeal Cert.ReferenceIdeal.Read Idealize.ShloMosaic Idealize.ShloMosaic.TcCoe
open Cert.ReferenceIdeal.Facts₀
open Cert.MatProd Cert.DenseRelu

/-- Layer 1: x · W1. -/
theorem layer1 (x0 : (⟨S100000x2, .f32⟩ : BufTy).Contents (Elt Ideal)) (x2 : (⟨S2x64, .f32⟩ : BufTy).Contents (Elt Ideal)) :
    val_main_v31 (F := Ideal) x0 x2 = matProd x0 x2 :=
  hostDot_eq dot_S100000x2_S2x64_S100000x64_1_0_0_1_n_n_wf none x0 x2

/-- The input of layer 2: max (agg1 + b1, 0). -/
theorem rectified2 (x0 : (⟨S100000x2, .f32⟩ : BufTy).Contents (Elt Ideal)) (x1 : (⟨S2x1600000, .i32⟩ : BufTy).Contents (Elt Ideal))
    (x2 : (⟨S2x64, .f32⟩ : BufTy).Contents (Elt Ideal)) (x3 : (⟨S64, .f32⟩ : BufTy).Contents (Elt Ideal)) :
    val_main_v48 (F := Ideal) x0 x1 x2 x3 = rectified (val_main_v44 (F := Ideal) x0 x1 x2) x3 :=
  host_rectified bcast_S64_S1x64_1 bcast_S1x64_S100000x64_0_1 bcast_S_S100000x64 (val_main_v44 (F := Ideal) x0 x1 x2) x3

/-- Layer 2: max (agg1 + b1, 0) · W2. -/
theorem layer2 (x0 : (⟨S100000x2, .f32⟩ : BufTy).Contents (Elt Ideal)) (x1 : (⟨S2x1600000, .i32⟩ : BufTy).Contents (Elt Ideal))
    (x2 : (⟨S2x64, .f32⟩ : BufTy).Contents (Elt Ideal)) (x3 : (⟨S64, .f32⟩ : BufTy).Contents (Elt Ideal))
    (x4 : (⟨S64x64, .f32⟩ : BufTy).Contents (Elt Ideal)) :
    val_main_v49 (F := Ideal) x0 x1 x2 x3 x4 = matProd (rectified (val_main_v44 (F := Ideal) x0 x1 x2) x3) x4 := by
  rw [← rectified2]
  exact hostDot_eq dot_S100000x64_S64x64_S100000x64_1_0_0_1_n_n_wf none (val_main_v48 (F := Ideal) x0 x1 x2 x3) x4

/-- The input of layer 3: max (agg2 + b2, 0). -/
theorem rectified3 (x0 : (⟨S100000x2, .f32⟩ : BufTy).Contents (Elt Ideal)) (x1 : (⟨S2x1600000, .i32⟩ : BufTy).Contents (Elt Ideal))
    (x2 : (⟨S2x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    val_main_v66 (F := Ideal) x0 x1 x2 x3 x4 x5 = rectified (val_main_v62 (F := Ideal) x0 x1 x2 x3 x4) x5 :=
  host_rectified bcast_S64_S1x64_1 bcast_S1x64_S100000x64_0_1 bcast_S_S100000x64 (val_main_v62 (F := Ideal) x0 x1 x2 x3 x4) x5

/-- Layer 3: max (agg2 + b2, 0) · W3. -/
theorem layer3 (x0 : (⟨S100000x2, .f32⟩ : BufTy).Contents (Elt Ideal)) (x1 : (⟨S2x1600000, .i32⟩ : BufTy).Contents (Elt Ideal))
    (x2 : (⟨S2x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x1, .f32⟩ : BufTy).Contents (Elt Ideal)) :
    val_main_v67 (F := Ideal) x0 x1 x2 x3 x4 x5 x6 = matProd (rectified (val_main_v62 (F := Ideal) x0 x1 x2 x3 x4) x5) x6 := by
  rw [← rectified3]
  exact hostDot_eq dot_S100000x64_S64x1_S100000x1_1_0_0_1_n_n_wf none (val_main_v66 (F := Ideal) x0 x1 x2 x3 x4 x5) x6

end Cert.ReferenceIdeal.Layers

end
-- ==== Proof.KernelFold.lean ====
/- The idealized kernel's result, read through @main segment by segment, is the reference's result.

   @main is: a prologue of host operations that builds, from the edge list alone, the source and destination node of
   every edge (self loops appended) and the edge weight dinv[src] · dinv[dst]; then three times "a dense layer in a
   pallas_call, followed by host operations that gather the layer's rows at the sources, scale them by the edge weights
   and add them up at the destinations"; and a final bias. The reference runs the same host operations around
   dot_generals. So the two results agree once each pallas_call's output array is known to be the dot_general's value:
   that is the three layer modules; everything else here is bookkeeping of which buffer holds which stage.

   Every comparison of long chains of host operations is made for an arbitrary float family; only the three layer
   steps use the extended reals. -/
import proofs.«115050_j77111842832559_1_alg».proof.Proof.Gen.KernelIdeal.Frame
import proofs.«115050_j77111842832559_1_alg».proof.Proof.Layer1
import proofs.«115050_j77111842832559_1_alg».proof.Proof.Layer2
import proofs.«115050_j77111842832559_1_alg».proof.Proof.Layer3
import proofs.«115050_j77111842832559_1_alg».proof.Proof.RefLayers
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.Read
open Cert.MatProd Cert.DenseRelu

/-! ## For any float family: the host stretches -/

section AnyFloats

variable {F : FTy → Type} [FloatOps F]
variable (m : (ℓ : Loc nD τ sig) → Buf (Elt F) ℓ) (ρ : Dev nD → PrngReg) (c : Dev nD)

/-- Argument 0 as launched. -/
abbrev feat : (⟨Cert.ReferenceIdeal.S100000x2, .f32⟩ : BufTy).Contents (Elt F) := m ((c.tc : Thread nD τ).loc main_arg0)
/-- Argument 1 as launched. -/
abbrev edges : (⟨Cert.ReferenceIdeal.S2x1600000, .i32⟩ : BufTy).Contents (Elt F) := m ((c.tc : Thread nD τ).loc main_arg1)
/-- Argument 2 as launched. -/
abbrev wt1 : (⟨Cert.ReferenceIdeal.S2x64, .f32⟩ : BufTy).Contents (Elt F) := m ((c.tc : Thread nD τ).loc main_arg2)
/-- Argument 3 as launched. -/
abbrev bias1 : (⟨Cert.ReferenceIdeal.S64, .f32⟩ : BufTy).Contents (Elt F) := m ((c.tc : Thread nD τ).loc main_arg3)
/-- Argument 4 as launched. -/
abbrev wt2 : (⟨Cert.ReferenceIdeal.S64x64, .f32⟩ : BufTy).Contents (Elt F) := m ((c.tc : Thread nD τ).loc main_arg4)
/-- Argument 5 as launched. -/
abbrev bias2 : (⟨Cert.ReferenceIdeal.S64, .f32⟩ : BufTy).Contents (Elt F) := m ((c.tc : Thread nD τ).loc main_arg5)
/-- Argument 6 as launched. -/
abbrev wt3 : (⟨Cert.ReferenceIdeal.S64x1, .f32⟩ : BufTy).Contents (Elt F) := m ((c.tc : Thread nD τ).loc main_arg6)
/-- Argument 7 as launched. -/
abbrev bias3 : (⟨Cert.ReferenceIdeal.S1, .f32⟩ : BufTy).Contents (Elt F) := m ((c.tc : Thread nD τ).loc main_arg7)

/-- The three stretches before the first pallas_call, as one list. -/
theorem prologue_eq : W3 m ρ c = StableHlo.after (hostOps0 ++ (hostOps0_1 ++ hostOps0_2)) (W0 m ρ c) := by
  rw [StableHlo.after_append, StableHlo.after_append]

/-- Reads a buffer at the first pallas_call's entry off the prologue. -/
local macro "read_prologue" : tactic =>
  `(tactic| (rw [prologue_eq]; simp only [hostOps0, hostOps0_1, hostOps0_2, List.cons_append, List.nil_append]; after_results_simp <;> rfl))

/-- Reads a buffer after a later stretch: the stretch's operations applied to what the stretch was entered with. -/
local macro "read_stretch" : tactic =>
  `(tactic| (dsimp only [W5, W7, W9]; simp only [hostOps1, hostOps2, hostOps3]; after_results_simp))

/-! ### At the first pallas_call's entry -/

/-- The source nodes: the edge list's first row, then every node once. -/
theorem entry1_src : W3 m ρ c (Proc.devRef .tc main_v3) = val_main_v3 (F := F) (edges m c) := by read_prologue
/-- The destination nodes: the edge list's second row, then every node once. -/
theorem entry1_dst : W3 m ρ c (Proc.devRef .tc main_v7) = val_main_v7 (F := F) (edges m c) := by read_prologue
/-- The edge weights dinv[src] · dinv[dst]. -/
theorem entry1_norm : W3 m ρ c (Proc.devRef .tc main_v30) = val_main_v30 (F := F) (edges m c) := by read_prologue
theorem entry1_arg0 : W3 m ρ c (Proc.devRef .tc main_arg0) = feat m c := by read_prologue
theorem entry1_arg2 : W3 m ρ c (Proc.devRef .tc main_arg2) = wt1 m c := by read_prologue
theorem entry1_arg3 : W3 m ρ c (Proc.devRef .tc main_arg3) = bias1 m c := by read_prologue
theorem entry1_arg4 : W3 m ρ c (Proc.devRef .tc main_arg4) = wt2 m c := by read_prologue
theorem entry1_arg5 : W3 m ρ c (Proc.devRef .tc main_arg5) = bias2 m c := by read_prologue
theorem entry1_arg6 : W3 m ρ c (Proc.devRef .tc main_arg6) = wt3 m c := by read_prologue
theorem entry1_arg7 : W3 m ρ c (Proc.devRef .tc main_arg7) = bias3 m c := by read_prologue

/-! ### After the first pallas_call -/

theorem exit1_src : W4 m ρ c (Proc.devRef .tc main_v3) = val_main_v3 (F := F) (edges m c) := (W4_of_ne m ρ c main_v3 (by decide)).trans (entry1_src m ρ c)
theorem exit1_dst : W4 m ρ c (Proc.devRef .tc main_v7) = val_main_v7 (F := F) (edges m c) := (W4_of_ne m ρ c main_v7 (by decide)).trans (entry1_dst m ρ c)
theorem exit1_norm : W4 m ρ c (Proc.devRef .tc main_v30) = val_main_v30 (F := F) (edges m c) := (W4_of_ne m ρ c main_v30 (by decide)).trans (entry1_norm m ρ c)
theorem exit1_arg3 : W4 m ρ c (Proc.devRef .tc main_arg3) = bias1 m c := (W4_of_ne m ρ c main_arg3 (by decide)).trans (entry1_arg3 m ρ c)
theorem exit1_arg4 : W4 m ρ c (Proc.devRef .tc main_arg4) = wt2 m c := (W4_of_ne m ρ c main_arg4 (by decide)).trans (entry1_arg4 m ρ c)
theorem exit1_arg5 : W4 m ρ c (Proc.devRef .tc main_arg5) = bias2 m c := (W4_of_ne m ρ c main_arg5 (by decide)).trans (entry1_arg5 m ρ c)
theorem exit1_arg6 : W4 m ρ c (Proc.devRef .tc main_arg6) = wt3 m c := (W4_of_ne m ρ c main_arg6 (by decide)).trans (entry1_arg6 m ρ c)
theorem exit1_arg7 : W4 m ρ c (Proc.devRef .tc main_arg7) = bias3 m c := (W4_of_ne m ρ c main_arg7 (by decide)).trans (entry1_arg7 m ρ c)

/-! ### At the second pallas_call's entry -/

/-- The first aggregation, over whatever the first pallas_call left in its output: gathered at the sources, scaled by
    the edge weights, added up at the destinations. -/
theorem entry2_agg : W5 m ρ c (Proc.devRef .tc main_v44) =
    Host.scatterAdd Cert.ReferenceIdeal.scatter_S100000x64_S1700000x1_S1700000x64_1_0_0_1 (val_main_v42 (F := F)) (val_main_v43 (F := F) (edges m c))
      (mulf (Host.gather Cert.ReferenceIdeal.gather_S100000x64_S1700000x1_S1700000x64_1_0_n_n_0_1_164 (W4 m ρ c (Proc.devRef .tc main_v31)) (val_main_v37 (F := F) (edges m c)))
        (val_main_v40 (F := F) (edges m c))) := by
  read_stretch
  rw [exit1_src, exit1_dst, exit1_norm]
  rfl
/-- The first bias as one row. -/
theorem entry2_bias : W5 m ρ c (Proc.devRef .tc main_v45) = shapeCast S1x64 (bias1 m c) shapeCasts_S64_S1x64 := by
  read_stretch
  rw [exit1_arg3]
  rfl
theorem entry2_src : W5 m ρ c (Proc.devRef .tc main_v3) = val_main_v3 (F := F) (edges m c) := by read_stretch; exact exit1_src m ρ c
theorem entry2_dst : W5 m ρ c (Proc.devRef .tc main_v7) = val_main_v7 (F := F) (edges m c) := by read_stretch; exact exit1_dst m ρ c
theorem entry2_norm : W5 m ρ c (Proc.devRef .tc main_v30) = val_main_v30 (F := F) (edges m c) := by read_stretch; exact exit1_norm m ρ c
theorem entry2_arg4 : W5 m ρ c (Proc.devRef .tc main_arg4) = wt2 m c := by read_stretch; exact exit1_arg4 m ρ c
theorem entry2_arg5 : W5 m ρ c (Proc.devRef .tc main_arg5) = bias2 m c := by read_stretch; exact exit1_arg5 m ρ c
theorem entry2_arg6 : W5 m ρ c (Proc.devRef .tc main_arg6) = wt3 m c := by read_stretch; exact exit1_arg6 m ρ c
theorem entry2_arg7 : W5 m ρ c (Proc.devRef .tc main_arg7) = bias3 m c := by read_stretch; exact exit1_arg7 m ρ c

/-! ### After the second pallas_call -/

theorem exit2_src : W6 m ρ c (Proc.devRef .tc main_v3) = val_main_v3 (F := F) (edges m c) := (W6_of_ne m ρ c main_v3 (by decide)).trans (entry2_src m ρ c)
theorem exit2_dst : W6 m ρ c (Proc.devRef .tc main_v7) = val_main_v7 (F := F) (edges m c) := (W6_of_ne m ρ c main_v7 (by decide)).trans (entry2_dst m ρ c)
theorem exit2_norm : W6 m ρ c (Proc.devRef .tc main_v30) = val_main_v30 (F := F) (edges m c) := (W6_of_ne m ρ c main_v30 (by decide)).trans (entry2_norm m ρ c)
theorem exit2_arg5 : W6 m ρ c (Proc.devRef .tc main_arg5) = bias2 m c := (W6_of_ne m ρ c main_arg5 (by decide)).trans (entry2_arg5 m ρ c)
theorem exit2_arg6 : W6 m ρ c (Proc.devRef .tc main_arg6) = wt3 m c := (W6_of_ne m ρ c main_arg6 (by decide)).trans (entry2_arg6 m ρ c)
theorem exit2_arg7 : W6 m ρ c (Proc.devRef .tc main_arg7) = bias3 m c := (W6_of_ne m ρ c main_arg7 (by decide)).trans (entry2_arg7 m ρ c)

/-! ### At the third pallas_call's entry -/

/-- The second aggregation, over whatever the second pallas_call left in its output. -/
theorem entry3_agg : W7 m ρ c (Proc.devRef .tc main_v59) =
    Host.scatterAdd Cert.ReferenceIdeal.scatter_S100000x64_S1700000x1_S1700000x64_1_0_0_1 (val_main_v60 (F := F)) (val_main_v61 (F := F) (edges m c))
      (mulf (Host.gather Cert.ReferenceIdeal.gather_S100000x64_S1700000x1_S1700000x64_1_0_n_n_0_1_164 (W6 m ρ c (Proc.devRef .tc main_v46)) (val_main_v55 (F := F) (edges m c)))
        (val_main_v58 (F := F) (edges m c))) := by
  read_stretch
  rw [exit2_src, exit2_dst, exit2_norm]
  rfl
/-- The second bias as one row. -/
theorem entry3_bias : W7 m ρ c (Proc.devRef .tc main_v60) = shapeCast S1x64 (bias2 m c) shapeCasts_S64_S1x64 := by
  read_stretch
  rw [exit2_arg5]
  rfl
theorem entry3_src : W7 m ρ c (Proc.devRef .tc main_v3) = val_main_v3 (F := F) (edges m c) := by read_stretch; exact exit2_src m ρ c
theorem entry3_dst : W7 m ρ c (Proc.devRef .tc main_v7) = val_main_v7 (F := F) (edges m c) := by read_stretch; exact exit2_dst m ρ c
theorem entry3_norm : W7 m ρ c (Proc.devRef .tc main_v30) = val_main_v30 (F := F) (edges m c) := by read_stretch; exact exit2_norm m ρ c
theorem entry3_arg6 : W7 m ρ c (Proc.devRef .tc main_arg6) = wt3 m c := by read_stretch; exact exit2_arg6 m ρ c
theorem entry3_arg7 : W7 m ρ c (Proc.devRef .tc main_arg7) = bias3 m c := by read_stretch; exact exit2_arg7 m ρ c

/-! ### After the third pallas_call, and the result -/

theorem exit3_src : W8 m ρ c (Proc.devRef .tc main_v3) = val_main_v3 (F := F) (edges m c) := (W8_of_ne m ρ c main_v3 (by decide)).trans (entry3_src m ρ c)
theorem exit3_dst : W8 m ρ c (Proc.devRef .tc main_v7) = val_main_v7 (F := F) (edges m c) := (W8_of_ne m ρ c main_v7 (by decide)).trans (entry3_dst m ρ c)
theorem exit3_norm : W8 m ρ c (Proc.devRef .tc main_v30) = val_main_v30 (F := F) (edges m c) := (W8_of_ne m ρ c main_v30 (by decide)).trans (entry3_norm m ρ c)
theorem exit3_arg7 : W8 m ρ c (Proc.devRef .tc main_arg7) = bias3 m c := (W8_of_ne m ρ c main_arg7 (by decide)).trans (entry3_arg7 m ρ c)

/-- The result: the third aggregation, over whatever the third pallas_call left in its output, plus the last bias. -/
theorem result_over_layer3 : W9 m ρ c (Proc.devRef .tc main_v76) =
    addf (Host.scatterAdd Cert.ReferenceIdeal.scatter_S100000x1_S1700000x1_S1700000x1_1_0_0_1 (val_main_v77 (F := F)) (val_main_v78 (F := F) (edges m c))
      (mulf (Host.gather Cert.ReferenceIdeal.gather_S100000x1_S1700000x1_S1700000x1_1_0_n_n_0_1_11 (W8 m ρ c (Proc.devRef .tc main_v61)) (val_main_v73 (F := F) (edges m c)))
        (val_main_v75 (F := F) (edges m c))))
      (val_main_v81 (F := F) (bias3 m c)) := by
  read_stretch
  rw [exit3_src, exit3_dst, exit3_norm, exit3_arg7]
  rfl

end AnyFloats

/-! ## Over the extended reals: the three layers, and the result -/

section ExtendedReals

variable (m : (ℓ : Loc nD τ sig) → Buf (Elt Ideal) ℓ) (ρ : Dev nD → PrngReg) (c : Dev nD)

/-- After the first pallas_call its output holds the reference's first dot_general. -/
theorem layer1_out : W4 m ρ c (Proc.devRef .tc main_v31) = val_main_v31 (F := Ideal) (feat m c) (wt1 m c) := by
  refine (W4_arr m ρ c 2).trans ((Layer1.array_eq (V3 m ρ) c).trans ?_)
  rw [Cert.ReferenceIdeal.Layers.layer1]
  unfold Layer1.result
  show matProd (W3 m ρ c (Proc.devRef .tc main_arg0)) (W3 m ρ c (Proc.devRef .tc main_arg2)) = _
  rw [entry1_arg0, entry1_arg2]

/-- The first aggregation is the reference's. -/
theorem agg1 : W5 m ρ c (Proc.devRef .tc main_v44) = val_main_v44 (F := Ideal) (feat m c) (edges m c) (wt1 m c) := by
  rw [entry2_agg, layer1_out]
  rfl

/-- After the second pallas_call its output holds the reference's second dot_general. -/
theorem layer2_out : W6 m ρ c (Proc.devRef .tc main_v46)
    = val_main_v49 (F := Ideal) (feat m c) (edges m c) (wt1 m c) (bias1 m c) (wt2 m c) := by
  refine (W6_arr m ρ c 3).trans ((Layer2.array_eq (V5 m ρ) c).trans ?_)
  rw [Cert.ReferenceIdeal.Layers.layer2]
  unfold Layer2.result
  show matProd (rectifiedRow (W5 m ρ c (Proc.devRef .tc main_v44)) (W5 m ρ c (Proc.devRef .tc main_v45))) (W5 m ρ c (Proc.devRef .tc main_arg4)) = _
  rw [agg1, entry2_bias, entry2_arg4, rectifiedRow_cast]

/-- The second aggregation is the reference's. -/
theorem agg2 : W7 m ρ c (Proc.devRef .tc main_v59)
    = val_main_v62 (F := Ideal) (feat m c) (edges m c) (wt1 m c) (bias1 m c) (wt2 m c) := by
  rw [entry3_agg, layer2_out]
  rfl

/-- After the third pallas_call its output holds the reference's third dot_general. -/
theorem layer3_out : W8 m ρ c (Proc.devRef .tc main_v61)
    = val_main_v67 (F := Ideal) (feat m c) (edges m c) (wt1 m c) (bias1 m c) (wt2 m c) (bias2 m c) (wt3 m c) := by
  refine (W8_arr m ρ c 3).trans ((Layer3.array_eq (V7 m ρ) c).trans ?_)
  rw [Cert.ReferenceIdeal.Layers.layer3]
  unfold Layer3.result
  show matProd (rectifiedRow (W7 m ρ c (Proc.devRef .tc main_v59)) (W7 m ρ c (Proc.devRef .tc main_v60))) (W7 m ρ c (Proc.devRef .tc main_arg6)) = _
  rw [agg2, entry3_bias, entry3_arg6, rectifiedRow_cast]

/-- THE RESULT: what the fold through @main leaves in the result buffer is the reference's last stage of the same
    arguments. -/
theorem result_eq : W9 m ρ c (Proc.devRef .tc main_v76)
    = val_main_v82 (F := Ideal) (feat m c) (edges m c) (wt1 m c) (bias1 m c) (wt2 m c) (bias2 m c) (wt3 m c) (bias3 m c) := by
  rw [result_over_layer3, layer3_out]
  rfl

end ExtendedReals

end Cert.KernelIdeal.Fold

end
-- ==== Proof.lean ====
/- A three-layer graph convolution (GCN) on 100000 nodes and 1.6 million edges, and its reference.

   Both programs first build, from the edge list, the source and destination of every edge with a self loop appended
   for each node, the in-degree of every node, and the edge weights dinv[src] · dinv[dst] with dinv = deg^(-1/2) where
   deg > 0 and 0 elsewhere. A layer is then h ↦ aggregate (h · W) + b, where aggregate gathers the rows of h · W at the
   sources, scales them by the edge weights and adds them up at the destinations; the first two layers are followed by
   max (·, 0).

   The kernel computes the three products h · W in pallas_calls over ten blocks of 10000 rows, and moves each layer's
   "+ b, max (·, 0)" into the NEXT call, in front of its product; the gather, scaling and scatter-add stay host
   operations, the same ones the reference runs. Over the extended reals the narrowing of the product's operands to
   bf16 is the identity, a product accumulated into zero is the contraction sum, and adding a row vector, the rectifier
   and a matrix product all act row by row, so the ten blocks of a call together are the reference's dot_general of the
   whole arrays (the three layer modules). The order of the operations is the same on both sides: no law of
   arithmetic beyond that is used, and the precondition (finite inputs) is never opened.

   The claims: both frames of the kernel are the generated ones; the reference's frame is its run with the result
   dropped; the idealization rewrote nothing; and the two results agree because the kernel's run ends with its result
   buffer at the reference's last stage of the same arguments (the fold module). -/
import proofs.«115050_j77111842832559_1_alg».proof.Defs
import proofs.«115050_j77111842832559_1_alg».proof.Proof.Gen.Kernel
import proofs.«115050_j77111842832559_1_alg».proof.Proof.Gen.Kernel.Frame
import proofs.«115050_j77111842832559_1_alg».proof.Proof.Gen.KernelIdeal
import proofs.«115050_j77111842832559_1_alg».proof.Proof.Gen.KernelIdeal.Frame
import proofs.«115050_j77111842832559_1_alg».proof.Proof.Gen.ReferenceIdeal
import proofs.«115050_j77111842832559_1_alg».proof.Proof.Gen.Pre_finite_inputs
import proofs.«115050_j77111842832559_1_alg».proof.Proof.RunResult
import proofs.«115050_j77111842832559_1_alg».proof.Proof.RefRun
import proofs.«115050_j77111842832559_1_alg».proof.Proof.RefRead
import proofs.«115050_j77111842832559_1_alg».proof.Proof.KernelFold
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's last stage of the kernel's
    arguments in their result buffers. -/
theorem algebraic : Cert.algebraic_KernelIdeal_ReferenceIdeal := by
  intro m ρ m' ρ' _ hagree
  refine ⟨fun c => Cert.ReferenceIdeal.Read.val_main_v82 (F := Ideal) (Cert.KernelIdeal.Fold.feat m c) (Cert.KernelIdeal.Fold.edges m c) (Cert.KernelIdeal.Fold.wt1 m c) (Cert.KernelIdeal.Fold.bias1 m c) (Cert.KernelIdeal.Fold.wt2 m c) (Cert.KernelIdeal.Fold.bias2 m c) (Cert.KernelIdeal.Fold.wt3 m c) (Cert.KernelIdeal.Fold.bias3 m c), ?_, ?_⟩
  · exact (θ_run Cert.KernelIdeal.defs _ _).mono (fun r h c => ⟨(h c).1.trans (Cert.KernelIdeal.Fold.result_eq m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v82_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
